-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S1600000 : Shape := ⟨1, ![1600000]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x4 .f32) (main_arg1 : IVec S1600000 32) (main_arg2 : IVec S1600000 32) (main_arg3 : FVec F S4x128 .f32) (main_arg4 : FVec F S4x128 .f32) (main_arg5 : FVec F S128 .f32) (main_arg6 : FVec F S128x128 .f32) (main_arg7 : FVec F S128x128 .f32) (main_arg8 : FVec F S128 .f32) (main_arg9 : FVec F S128x2 .f32) (main_arg10 : FVec F S2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S100000x4 : Shape := ⟨2, ![100000, 4]⟩
abbrev S1600000 : Shape := ⟨1, ![1600000]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S1600000x4 : Shape := ⟨2, ![1600000, 4]⟩
abbrev S100000 : Shape := ⟨1, ![100000]⟩
abbrev S100000x1 : Shape := ⟨2, ![100000, 1]⟩
abbrev S1x128 : Shape := ⟨2, ![1, 128]⟩
abbrev S100000x128 : Shape := ⟨2, ![100000, 128]⟩
abbrev S5000x4 : Shape := ⟨2, ![5000, 4]⟩
abbrev S5000x128 : Shape := ⟨2, ![5000, 128]⟩
abbrev S1600000x128 : Shape := ⟨2, ![1600000, 128]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 67
  | .vmem => 24
  | .smem => 0
  | _ => 0

abbrev bufTy : (tb : Table) → Fin (tcTables nBuf tb) → BufTy
  | .hbm, ⟨0, _⟩ => ⟨S100000x4, .f32⟩
  | .hbm, ⟨1, _⟩ => ⟨S1600000, .i32⟩
  | .hbm, ⟨2, _⟩ => ⟨S1600000, .i32⟩
  | .hbm, ⟨3, _⟩ => ⟨S4x128, .f32⟩
  | .hbm, ⟨4, _⟩ => ⟨S4x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x4, .f32⟩
  | .hbm, ⟨20, _⟩ => ⟨S_, .f32⟩
  | .hbm, ⟨21, _⟩ => ⟨S100000x4, .f32⟩
  | .hbm, ⟨22, _⟩ => ⟨S1600000x1, .i32⟩
  | .hbm, ⟨23, _⟩ => ⟨S100000x4, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x4, .f32⟩
  | .hbm, ⟨35, _⟩ => ⟨S100000x4, .f32⟩
  | .hbm, ⟨36, _⟩ => ⟨S1x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S1x2, .f32⟩
  | .hbm, ⟨66, _⟩ => ⟨S100000x2, .f32⟩
  | .local _ .vmem, ⟨0, _⟩ => ⟨S5000x4, .f32⟩
  | .local _ .vmem, ⟨1, _⟩ => ⟨S5000x4, .f32⟩
  | .local _ .vmem, ⟨2, _⟩ => ⟨S5000x4, .f32⟩
  | .local _ .vmem, ⟨3, _⟩ => ⟨S5000x4, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x2, .f32⟩
  | .local _ .vmem, ⟨21, _⟩ => ⟨S1x2, .f32⟩
  | .local _ .vmem, ⟨22, _⟩ => ⟨S5000x2, .f32⟩
  | .local _ .vmem, ⟨23, _⟩ => ⟨S5000x2, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x4 : S_.BroadcastsInDim S100000x4 (![] : Fin 0 → Fin S100000x4.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  shapeCasts_S128_S1x128 : S128.ShapeCasts S1x128
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  shapeCasts_S5000x4_S5000x4 : S5000x4.ShapeCasts S5000x4
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  scatter_S100000_S1600000x1_S1600000_n_0_0_1_wf : ScatterDims.WF S100000 S1600000x1 S1600000 [] [0] [0] 1
  dot_S5000x4_S4x128_S5000x128_1_0_0_1_n_n_wf : DotDims.WF S5000x4 S4x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x4.size a ≤ S100000x4.size a
  hwx0_1 : ∀ i : grid0.Coords, EltTy.bits .f32 = 32 ∨ (Rect.block (s := S100000x4) S5000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x4 : Shape := ⟨2, ![100000, 4]⟩
abbrev S1600000 : Shape := ⟨1, ![1600000]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S1600000x4 : Shape := ⟨2, ![1600000, 4]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x2 : Shape := ⟨2, ![100000, 2]⟩
abbrev S1x2 : Shape := ⟨2, ![1, 2]⟩

abbrev nBuf : Space → Nat
  | .hbm => 83
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S1600000, .i32⟩
  | .hbm, ⟨2, _⟩ => ⟨S1600000, .i32⟩
  | .hbm, ⟨3, _⟩ => ⟨S4x128, .f32⟩
  | .hbm, ⟨4, _⟩ => ⟨S4x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x4, .f32⟩
  | .hbm, ⟨20, _⟩ => ⟨S_, .f32⟩
  | .hbm, ⟨21, _⟩ => ⟨S100000x4, .f32⟩
  | .hbm, ⟨22, _⟩ => ⟨S1600000x1, .i32⟩
  | .hbm, ⟨23, _⟩ => ⟨S100000x4, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x4, .f32⟩
  | .hbm, ⟨35, _⟩ => ⟨S100000x4, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x2, .f32⟩
  | .hbm, ⟨80, _⟩ => ⟨S1x2, .f32⟩
  | .hbm, ⟨81, _⟩ => ⟨S100000x2, .f32⟩
  | .hbm, ⟨82, _⟩ => ⟨S100000x2, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x4 : S_.BroadcastsInDim S100000x4 (![] : Fin 0 → Fin S100000x4.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  scatter_S100000_S1600000x1_S1600000_n_0_0_1_wf : ScatterDims.WF S100000 S1600000x1 S1600000 [] [0] [0] 1
  dot_S100000x4_S4x128_S100000x128_1_0_0_1_n_n_wf : DotDims.WF S100000x4 S4x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Layer.lean ====
/-
  One layer of the network as a function of whole arrays, entry by entry.

  A layer takes the node rows `h` and the neighbourhood means `a` (both `R × K`), a weight matrix for each
  (`K × D`) and a bias row (`1 × D`). Entry `(p, q)` of its result is

      max ( (∑ₖ h(p,k)·ws(k,q) + ∑ₖ a(p,k)·wn(k,q)) + b(0,q) , 0 ),

  and the closing projection is the same without the second product and without the maximum:
  `∑ₖ h(p,k)·w(k,q) + b(0,q)`. Entry `(p, q)` depends on row `p` of the two row arrays only, so a block of rows of
  the result is the layer of the same block of rows of `h` and `a`: that is all a row-tiled evaluation uses.
  The zero is kept as the word it is printed with; it is the same word on every side and is never evaluated.
-/
import proofs.«139321_j11905649344801_1_alg».proof.Proof.LibDot

noncomputable section

namespace Cert.GNN

open Idealize.ShloMosaic Idealize.ShloMosaic.ValueIdx

variable {R K D : ℕ}

/-- Entry `(p, q)` of a layer with the maximum against zero. -/
def layerAt (h a : FVec Ideal ⟨2, ![R, K]⟩ .f32) (ws wn : FVec Ideal ⟨2, ![K, D]⟩ .f32) (b : FVec Ideal ⟨2, ![1, D]⟩ .f32)
    (p : Fin R) (q : Fin D) : Ideal .f32 :=
  max (((∑ k : Fin K, h (ix2 p k) * ws (ix2 k q)) + ∑ k : Fin K, a (ix2 p k) * wn (ix2 k q)) + b (ix2 (0 : Fin 1) q))
    (FloatOps.ofBits .f32 0x00000000#32)

/-- The layer as a whole array. -/
def layer (h a : FVec Ideal ⟨2, ![R, K]⟩ .f32) (ws wn : FVec Ideal ⟨2, ![K, D]⟩ .f32) (b : FVec Ideal ⟨2, ![1, D]⟩ .f32) :
    FVec Ideal ⟨2, ![R, D]⟩ .f32 :=
  fun i => layerAt h a ws wn b ⟨(i 0).val, idx2_lt0 i⟩ ⟨(i 1).val, idx2_lt1 i⟩

theorem layer_ix2 (h a : FVec Ideal ⟨2, ![R, K]⟩ .f32) (ws wn : FVec Ideal ⟨2, ![K, D]⟩ .f32) (b : FVec Ideal ⟨2, ![1, D]⟩ .f32)
    (p : Fin R) (q : Fin D) : layer h a ws wn b (ix2 p q) = layerAt h a ws wn b p q := rfl

/-- A layer entry reads one row of each row array: if row `p` of the blocks `x0`, `x1` is row `r` of `h`, `a`, and
    the small operands agree on column `q`, the block's entry `(p, q)` is the whole array's entry `(r, q)`. -/
theorem layerAt_of_rows {B : ℕ} (x0 x1 : FVec Ideal ⟨2, ![B, K]⟩ .f32) (x2 x3 : FVec Ideal ⟨2, ![K, D]⟩ .f32)
    (x4 : FVec Ideal ⟨2, ![1, D]⟩ .f32) (h a : FVec Ideal ⟨2, ![R, K]⟩ .f32) (ws wn : FVec Ideal ⟨2, ![K, D]⟩ .f32)
    (b : FVec Ideal ⟨2, ![1, D]⟩ .f32) (p : Fin B) (r : Fin R) (q : Fin D)
    (h0 : ∀ k : Fin K, x0 (ix2 p k) = h (ix2 r k)) (h1 : ∀ k : Fin K, x1 (ix2 p k) = a (ix2 r k))
    (h2 : ∀ k : Fin K, x2 (ix2 k q) = ws (ix2 k q)) (h3 : ∀ k : Fin K, x3 (ix2 k q) = wn (ix2 k q))
    (h4 : x4 (ix2 (0 : Fin 1) q) = b (ix2 (0 : Fin 1) q)) :
    layerAt x0 x1 x2 x3 x4 p q = layerAt h a ws wn b r q := by
  unfold layerAt
  simp only [h0, h1, h2, h3, h4]

/-- Entry `(p, q)` of the closing projection. -/
def projAt (h : FVec Ideal ⟨2, ![R, K]⟩ .f32) (w : FVec Ideal ⟨2, ![K, D]⟩ .f32) (b : FVec Ideal ⟨2, ![1, D]⟩ .f32)
    (p : Fin R) (q : Fin D) : Ideal .f32 :=
  (∑ k : Fin K, h (ix2 p k) * w (ix2 k q)) + b (ix2 (0 : Fin 1) q)

/-- The closing projection as a whole array. -/
def proj (h : FVec Ideal ⟨2, ![R, K]⟩ .f32) (w : FVec Ideal ⟨2, ![K, D]⟩ .f32) (b : FVec Ideal ⟨2, ![1, D]⟩ .f32) :
    FVec Ideal ⟨2, ![R, D]⟩ .f32 :=
  fun i => projAt h w b ⟨(i 0).val, idx2_lt0 i⟩ ⟨(i 1).val, idx2_lt1 i⟩

theorem proj_ix2 (h : FVec Ideal ⟨2, ![R, K]⟩ .f32) (w : FVec Ideal ⟨2, ![K, D]⟩ .f32) (b : FVec Ideal ⟨2, ![1, D]⟩ .f32)
    (p : Fin R) (q : Fin D) : proj h w b (ix2 p q) = projAt h w b p q := rfl

/-- The projection likewise reads one row of its row array. -/
theorem projAt_of_rows {B : ℕ} (x0 : FVec Ideal ⟨2, ![B, K]⟩ .f32) (x1 : FVec Ideal ⟨2, ![K, D]⟩ .f32)
    (x2 : FVec Ideal ⟨2, ![1, D]⟩ .f32) (h : FVec Ideal ⟨2, ![R, K]⟩ .f32) (w : FVec Ideal ⟨2, ![K, D]⟩ .f32)
    (b : FVec Ideal ⟨2, ![1, D]⟩ .f32) (p : Fin B) (r : Fin R) (q : Fin D)
    (h0 : ∀ k : Fin K, x0 (ix2 p k) = h (ix2 r k)) (h1 : ∀ k : Fin K, x1 (ix2 k q) = w (ix2 k q))
    (h2 : x2 (ix2 (0 : Fin 1) q) = b (ix2 (0 : Fin 1) q)) :
    projAt x0 x1 x2 p q = projAt h w b r q := by
  unfold projAt
  simp only [h0, h1, h2]

end Cert.GNN

end
-- ==== Proof.Pay.lean ====
/-
  What one grid point computes, read at an entry.

  Each of the three kernel bodies stores one value: a pure function of the blocks it loaded. At the ideal values the
  changes of float format are the identity, a product into the zero accumulator is the plain sum over the contracted
  index, the bias row is repeated down the rows, and the closing maximum is taken against the zero word. So entry
  `(p, q)` of the stored block is the layer's (or the projection's) entry `(p, q)` of the loaded blocks.
-/
import proofs.«139321_j11905649344801_1_alg».proof.Proof.Layer
import proofs.«139321_j11905649344801_1_alg».proof.Proof.Gen.KernelIdeal.Skeleton
import Idealize.ShloMosaic.Lib.ValueLayout
import Idealize.ShloMosaic.Lib.Pipeline.Value

noncomputable section

namespace Cert.KernelIdeal.Blocks

open Idealize.ShloMosaic Idealize.ShloMosaic.ValueIdx Cert.KernelIdeal Cert.KernelIdeal.Gen Cert.GNN

/-- The first layer's stored block, at entry `(p, q)`: `K = 4`. -/
theorem pay0_apply (x0 x1 : Vec Ideal S5000x4 .f32) (x2 x3 : Vec Ideal S4x128 .f32) (x4 : Vec Ideal S1x128 .f32)
    (p : Fin 5000) (q : Fin 128) :
    k0_pay1 (F := Ideal) x0 x1 x2 x3 x4 (ix2 p q) = layerAt x0 x1 x2 x3 x4 p q := by
  unfold k0_pay1 layerAt
  rw [maximumf_apply, addf_apply, addf_apply, broadcast_apply, shapeCast_self, shapeCast_self,
    broadcastTo_1b_ab_apply]
  simp only [matmul]
  rw [show dot_S5000x4_S4x128_S5000x128_1_0_0_1_n_n = DotDims.plain 5000 4 128 from rfl,
    matmul_plain_zero_apply, matmul_plain_zero_apply]
  simp only [truncf_apply]

/-- The second layer's stored block, at entry `(p, q)`: `K = 128`. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q) = layerAt x0 x1 x2 x3 x4 p q := by
  unfold k1_pay1 layerAt
  rw [maximumf_apply, addf_apply, addf_apply, broadcast_apply, shapeCast_self, shapeCast_self, shapeCast_self,
    broadcastTo_1b_ab_apply]
  simp only [matmul]
  rw [show dot_S5000x128_S128x128_S5000x128_1_0_0_1_n_n = DotDims.plain 5000 128 128 from rfl,
    matmul_plain_zero_apply, matmul_plain_zero_apply]
  simp only [truncf_apply]

/-- The projection's stored block, at entry `(p, q)`: two columns. -/
theorem pay2_apply (x0 : Vec Ideal S5000x128 .f32) (x1 : Vec Ideal S128x2 .f32) (x2 : Vec Ideal S1x2 .f32)
    (p : Fin 5000) (q : Fin 2) :
    k2_pay1 (F := Ideal) x0 x1 x2 (ix2 p q) = projAt x0 x1 x2 p q := by
  unfold k2_pay1 projAt
  rw [addf_apply, shapeCast_self, shapeCast_self, broadcastTo_1b_ab_apply]
  simp only [matmul]
  rw [show dot_S5000x128_S128x2_S5000x2_1_0_0_1_n_n = DotDims.plain 5000 128 2 from rfl, matmul_plain_zero_apply]
  simp only [truncf_apply]

end Cert.KernelIdeal.Blocks

end
-- ==== Proof.Blocks0.lean ====
/-
  The first layer's result array, from its row blocks.

  Grid point `t` of the first kernel launch reads rows `5000·t … 5000·t + 4999` of the node rows and of the
  neighbourhood means, all of both weight matrices and the bias row, and writes back the same rows of the result. By
  the entry reading of the stored block, what it writes back is those rows of the layer of the WHOLE arrays; the
  twenty blocks tile the `100000` rows, so the array ends holding the layer of the arrays the launch found. This is
  stated for any contents `V` the launch may be entered with.
-/
import proofs.«139321_j11905649344801_1_alg».proof.Proof.Pay
import proofs.«139321_j11905649344801_1_alg».proof.Proof.Gen.KernelIdeal.Frame

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GNN

variable (V : (c : Dev nD) → (b : Ref sig .tc) → Buf (Elt Ideal) ((c : Thread nD τ).loc b))

theorem zz : (![0, 0] : Fin 2 → Nat) = fun _ => 0 := funext fun a => by fin_cases a <;> rfl

/-- The printed index maps over the twenty grid points: the row windows sit at block `t` of the row axis, the
    small operands at block `0`. -/
theorem idx0 : ∀ t : Fin cfg0.N, t.val < 20
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `5000·t + p` of the array. -/
def row0 (t : Fin cfg0.N) (p : Fin 5000) : Fin 100000 := ⟨t.val * 5000 + p.val, by have := (idx0 t).1; omega⟩

theorem emb0_0 (t : Fin cfg0.N) (p : Fin 5000) (k : Fin 4) :
    ((cfg0.win 0).blk t).view.emb (ix2 p k) = ix2 (row0 t p) k := by
  obtain ⟨-, e0, e1, -⟩ := idx0 t
  funext a; apply Fin.ext
  match a with
  | ⟨0, _⟩ => show win0_0.index t (0 : Fin 2) * 5000 + 1 * p.val = t.val * 5000 + p.val; omega
  | ⟨1, _⟩ => show win0_0.index t (1 : Fin 2) * 4 + 1 * k.val = k.val; omega

theorem emb0_1 (t : Fin cfg0.N) (p : Fin 5000) (k : Fin 4) :
    ((cfg0.win 1).blk t).view.emb (ix2 p k) = ix2 (row0 t p) k := by
  obtain ⟨-, -, -, e0, e1, -⟩ := idx0 t
  funext a; apply Fin.ext
  match a with
  | ⟨0, _⟩ => show win0_1.index t (0 : Fin 2) * 5000 + 1 * p.val = t.val * 5000 + p.val; omega
  | ⟨1, _⟩ => show win0_1.index t (1 : Fin 2) * 4 + 1 * k.val = k.val; omega

theorem emb0_2 (t : Fin cfg0.N) (k : Fin 4) (q : Fin 128) :
    ((cfg0.win 2).blk t).view.emb (ix2 k q) = ix2 k q := by
  obtain ⟨-, -, -, -, -, e0, e1, -⟩ := idx0 t
  funext a; apply Fin.ext
  match a with
  | ⟨0, _⟩ => show win0_2.index t (0 : Fin 2) * 4 + 1 * k.val = k.val; omega
  | ⟨1, _⟩ => show win0_2.index t (1 : Fin 2) * 128 + 1 * q.val = q.val; omega

theorem emb0_3 (t : Fin cfg0.N) (k : Fin 4) (q : Fin 128) :
    ((cfg0.win 3).blk t).view.emb (ix2 k q) = ix2 k q := by
  obtain ⟨-, -, -, -, -, -, -, e0, e1, -⟩ := idx0 t
  funext a; apply Fin.ext
  match a with
  | ⟨0, _⟩ => show win0_3.index t (0 : Fin 2) * 4 + 1 * k.val = k.val; omega
  | ⟨1, _⟩ => show win0_3.index t (1 : Fin 2) * 128 + 1 * q.val = q.val; omega

theorem emb0_4 (t : Fin cfg0.N) (q : Fin 128) :
    ((cfg0.win 4).blk t).view.emb (ix2 (0 : Fin 1) q) = ix2 (0 : Fin 1) q := by
  obtain ⟨-, -, -, -, -, -, -, -, -, e0, e1, -⟩ := idx0 t
  funext a; apply Fin.ext
  match a with
  | ⟨0, _⟩ => show win0_4.index t (0 : Fin 2) * 1 + 1 * 0 = 0; omega
  | ⟨1, _⟩ => show win0_4.index t (1 : Fin 2) * 128 + 1 * q.val = q.val; omega

theorem emb0_5 (t : Fin cfg0.N) (p : Fin 5000) (q : Fin 128) :
    ((cfg0.win 5).blk t).view.emb (ix2 p q) = ix2 (row0 t p) q := by
  obtain ⟨-, -, -, -, -, -, -, -, -, -, -, e0, e1⟩ := idx0 t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- The layer of the arrays the launch is entered with. -/
abbrev layer0 (c : Dev nD) : FVec Ideal S100000x128 .f32 :=
  layer (V c main_arg0) (V c main_v18) (V c main_arg3) (V c main_arg4) (V c main_v19)

/-- What point `t` writes back is block `t` of the layer of the whole arrays. -/
theorem flushed0 (c : Dev nD) (t : Fin cfg0.N) :
    (dat0 (F := Ideal) V c).flushed 5 t = ((cfg0.win 5).blk t).view.read (Elt Ideal) (layer0 V c) := by
  show (cfg0.win 5).cut (grid0.coords t) ((dat0 (F := Ideal) V c).after 5 t) = _
  rw [after0_5]
  unfold out0_5
  rw [View.canon_unit_zero zz]
  simp only [View.ld_unit_zero (S := S5000x4) zz, View.ld_unit_zero (S := S4x128) zz, View.ld_unit_zero (S := S1x128) zz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = layer (V c main_arg0) (V c main_v18) (V c main_arg3) (V c main_arg4) (V c main_v19) (((cfg0.win 5).blk t).view.emb (ix2 p q))
  rw [emb0_5, layer_ix2, pay0_apply]
  exact layerAt_of_rows (iblk0 V c 0 t) (iblk0 V c 1 t) (iblk0 V c 2 t) (iblk0 V c 3 t) (iblk0 V c 4 t)
    (V c main_arg0) (V c main_v18) (V c main_arg3) (V c main_arg4) (V c main_v19) p (row0 t p) q
    (fun k => by show V c main_arg0 (((cfg0.win 0).blk t).view.emb (ix2 p k)) = _; rw [emb0_0])
    (fun k => by show V c main_v18 (((cfg0.win 1).blk t).view.emb (ix2 p k)) = _; rw [emb0_1])
    (fun k => by show V c main_arg3 (((cfg0.win 2).blk t).view.emb (ix2 k q)) = _; rw [emb0_2])
    (fun k => by show V c main_arg4 (((cfg0.win 3).blk t).view.emb (ix2 k q)) = _; rw [emb0_3])
    (by show V c main_v19 (((cfg0.win 4).blk t).view.emb (ix2 (0 : Fin 1) q)) = _; rw [emb0_4])

/-- An index of the result array is in point `t`'s block iff each coordinate is in the block's range. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- The twenty row blocks cover the array: row `r` lies in block `r / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, by rw [show cfg0.N = 20 from N_0]; omega⟩
  have ht : t.val = (i 0).val / 5000 := rfl
  obtain ⟨-, -, -, -, -, -, -, -, -, -, -, e0, e1⟩ := idx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY of the first launch: the layer of the arrays it was entered with. -/
theorem final0 (c : Dev nD) : (dat0 (F := Ideal) V c).arrAt 5 cfg0.N = layer0 V c :=
  (dat0 (F := Ideal) V c).arrAt_eq_of_cover 5 (layer0 V c) (fun t _ => flushed0 V c t) cover0

end Cert.KernelIdeal.Blocks

end
-- ==== Proof.Blocks1.lean ====
/-
  The second layer's result array, from its row blocks.

  Grid point `t` of the second kernel launch reads rows `5000·t … 5000·t + 4999` of the node rows and of the
  neighbourhood means, all of both weight matrices and the bias row, and writes back the same rows of the result. By
  the entry reading of the stored block, what it writes back is those rows of the layer of the WHOLE arrays; the
  twenty blocks tile the `100000` rows, so the array ends holding the layer of the arrays the launch found. This is
  stated for any contents `V` the launch may be entered with.
-/
import proofs.«139321_j11905649344801_1_alg».proof.Proof.Blocks0
import proofs.«139321_j11905649344801_1_alg».proof.Proof.Gen.KernelIdeal.Frame

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GNN

variable (V : (c : Dev nD) → (b : Ref sig .tc) → Buf (Elt Ideal) ((c : Thread nD τ).loc b))

/-- The printed index maps over the twenty grid points: the row windows sit at block `t` of the row axis, the
    small operands at block `0`. -/
theorem idx1 : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `5000·t + p` of the array. -/
def row1 (t : Fin cfg1.N) (p : Fin 5000) : Fin 100000 := ⟨t.val * 5000 + p.val, by have := (idx1 t).1; omega⟩

theorem emb1_0 (t : Fin cfg1.N) (p : Fin 5000) (k : Fin 128) :
    ((cfg1.win 0).blk t).view.emb (ix2 p k) = ix2 (row1 t p) k := by
  obtain ⟨-, e0, e1, -⟩ := idx1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb1_1 (t : Fin cfg1.N) (p : Fin 5000) (k : Fin 128) :
    ((cfg1.win 1).blk t).view.emb (ix2 p k) = ix2 (row1 t p) k := by
  obtain ⟨-, -, -, e0, e1, -⟩ := idx1 t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

theorem emb1_2 (t : Fin cfg1.N) (k : Fin 128) (q : Fin 128) :
    ((cfg1.win 2).blk t).view.emb (ix2 k q) = ix2 k q := by
  obtain ⟨-, -, -, -, -, e0, e1, -⟩ := idx1 t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem emb1_3 (t : Fin cfg1.N) (k : Fin 128) (q : Fin 128) :
    ((cfg1.win 3).blk t).view.emb (ix2 k q) = ix2 k q := by
  obtain ⟨-, -, -, -, -, -, -, e0, e1, -⟩ := idx1 t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem emb1_4 (t : Fin cfg1.N) (q : Fin 128) :
    ((cfg1.win 4).blk t).view.emb (ix2 (0 : Fin 1) q) = ix2 (0 : Fin 1) q := by
  obtain ⟨-, -, -, -, -, -, -, -, -, e0, e1, -⟩ := idx1 t
  funext a; apply Fin.ext
  match a with
  | ⟨0, _⟩ => show win1_4.index t (0 : Fin 2) * 1 + 1 * 0 = 0; omega
  | ⟨1, _⟩ => show win1_4.index t (1 : Fin 2) * 128 + 1 * q.val = q.val; omega

theorem emb1_5 (t : Fin cfg1.N) (p : Fin 5000) (q : Fin 128) :
    ((cfg1.win 5).blk t).view.emb (ix2 p q) = ix2 (row1 t p) q := by
  obtain ⟨-, -, -, -, -, -, -, -, -, -, -, e0, e1⟩ := idx1 t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- The layer of the arrays the launch is entered with. -/
abbrev layer1 (c : Dev nD) : FVec Ideal S100000x128 .f32 :=
  layer (V c main_v20) (V c main_v39) (V c main_arg6) (V c main_arg7) (V c main_v40)

/-- What point `t` writes back is block `t` of the layer of the whole arrays. -/
theorem flushed1 (c : Dev nD) (t : Fin cfg1.N) :
    (dat1 (F := Ideal) V c).flushed 5 t = ((cfg1.win 5).blk t).view.read (Elt Ideal) (layer1 V c) := by
  show (cfg1.win 5).cut (grid1.coords t) ((dat1 (F := Ideal) V c).after 5 t) = _
  rw [after1_5]
  unfold out1_5
  rw [View.canon_unit_zero zz]
  simp only [View.ld_unit_zero (S := S5000x128) zz, View.ld_unit_zero (S := S128x128) zz, View.ld_unit_zero (S := S1x128) zz]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = layer (V c main_v20) (V c main_v39) (V c main_arg6) (V c main_arg7) (V c main_v40) (((cfg1.win 5).blk t).view.emb (ix2 p q))
  rw [emb1_5, layer_ix2, pay1_apply]
  exact layerAt_of_rows (iblk1 V c 0 t) (iblk1 V c 1 t) (iblk1 V c 2 t) (iblk1 V c 3 t) (iblk1 V c 4 t)
    (V c main_v20) (V c main_v39) (V c main_arg6) (V c main_arg7) (V c main_v40) p (row1 t p) q
    (fun k => by show V c main_v20 (((cfg1.win 0).blk t).view.emb (ix2 p k)) = _; rw [emb1_0])
    (fun k => by show V c main_v39 (((cfg1.win 1).blk t).view.emb (ix2 p k)) = _; rw [emb1_1])
    (fun k => by show V c main_arg6 (((cfg1.win 2).blk t).view.emb (ix2 k q)) = _; rw [emb1_2])
    (fun k => by show V c main_arg7 (((cfg1.win 3).blk t).view.emb (ix2 k q)) = _; rw [emb1_3])
    (by show V c main_v40 (((cfg1.win 4).blk t).view.emb (ix2 (0 : Fin 1) q)) = _; rw [emb1_4])

/-- An index of the result array is in point `t`'s block iff each coordinate is in the block's range. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- The twenty row blocks cover the array: row `r` lies in block `r / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, by rw [show cfg1.N = 20 from N_1]; omega⟩
  have ht : t.val = (i 0).val / 5000 := rfl
  obtain ⟨-, -, -, -, -, -, -, -, -, -, -, e0, e1⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY of the second launch: the layer of the arrays it was entered with. -/
theorem final1 (c : Dev nD) : (dat1 (F := Ideal) V c).arrAt 5 cfg1.N = layer1 V c :=
  (dat1 (F := Ideal) V c).arrAt_eq_of_cover 5 (layer1 V c) (fun t _ => flushed1 V c t) cover1

end Cert.KernelIdeal.Blocks

end
-- ==== Proof.Blocks2.lean ====
/-
  The result array, from its row blocks.

  Grid point `t` of the last kernel launch reads rows `5000·t … 5000·t + 4999` of the second layer's rows, all of the
  output weights and the bias row, and writes back the same rows of the two-column result. What it writes back is those
  rows of the projection of the WHOLE arrays; the twenty blocks tile the `100000` rows, so the array ends holding the
  projection of the arrays the launch found, for any contents `V` it may be entered with.
-/
import proofs.«139321_j11905649344801_1_alg».proof.Proof.Blocks0

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GNN

variable (V : (c : Dev nD) → (b : Ref sig .tc) → Buf (Elt Ideal) ((c : Thread nD τ).loc b))

/-- The printed index maps over the twenty grid points: the row windows sit at block `t` of the row axis, the
    small operands at block `0`. -/
theorem idx2 : ∀ t : Fin cfg2.N, t.val < 20
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of block `t` is row `5000·t + p` of the array. -/
def row2 (t : Fin cfg2.N) (p : Fin 5000) : Fin 100000 := ⟨t.val * 5000 + p.val, by have := (idx2 t).1; omega⟩

theorem emb2_0 (t : Fin cfg2.N) (p : Fin 5000) (k : Fin 128) :
    ((cfg2.win 0).blk t).view.emb (ix2 p k) = ix2 (row2 t p) k := by
  obtain ⟨-, e0, e1, -⟩ := idx2 t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem emb2_1 (t : Fin cfg2.N) (k : Fin 128) (q : Fin 2) :
    ((cfg2.win 1).blk t).view.emb (ix2 k q) = ix2 k q := by
  obtain ⟨-, -, -, e0, e1, -⟩ := idx2 t
  funext a; apply Fin.ext
  match a with
  | ⟨0, _⟩ => show win2_1.index t (0 : Fin 2) * 128 + 1 * k.val = k.val; omega
  | ⟨1, _⟩ => show win2_1.index t (1 : Fin 2) * 2 + 1 * q.val = q.val; omega

theorem emb2_2 (t : Fin cfg2.N) (q : Fin 2) :
    ((cfg2.win 2).blk t).view.emb (ix2 (0 : Fin 1) q) = ix2 (0 : Fin 1) q := by
  obtain ⟨-, -, -, -, -, e0, e1, -⟩ := idx2 t
  funext a; apply Fin.ext
  match a with
  | ⟨0, _⟩ => show win2_2.index t (0 : Fin 2) * 1 + 1 * 0 = 0; omega
  | ⟨1, _⟩ => show win2_2.index t (1 : Fin 2) * 2 + 1 * q.val = q.val; omega

theorem emb2_3 (t : Fin cfg2.N) (p : Fin 5000) (q : Fin 2) :
    ((cfg2.win 3).blk t).view.emb (ix2 p q) = ix2 (row2 t p) q := by
  obtain ⟨-, -, -, -, -, -, -, e0, e1⟩ := idx2 t
  funext a; apply Fin.ext
  match a with
  | ⟨0, _⟩ => show win2_3.index t (0 : Fin 2) * 5000 + 1 * p.val = t.val * 5000 + p.val; omega
  | ⟨1, _⟩ => show win2_3.index t (1 : Fin 2) * 2 + 1 * q.val = q.val; omega

/-- The projection of the arrays the launch is entered with. -/
abbrev proj2 (c : Dev nD) : FVec Ideal S100000x2 .f32 :=
  proj (V c main_v41) (V c main_arg9) (V c main_v42)

/-- What point `t` writes back is block `t` of the projection of the whole arrays. -/
theorem flushed2 (c : Dev nD) (t : Fin cfg2.N) :
    (dat2 (F := Ideal) V c).flushed 3 t = ((cfg2.win 3).blk t).view.read (Elt Ideal) (proj2 V c) := by
  show (cfg2.win 3).cut (grid2.coords t) ((dat2 (F := Ideal) V c).after 3 t) = _
  rw [after2_3]
  unfold out2_3
  rw [View.canon_unit_zero zz]
  simp only [View.ld_unit_zero (S := S5000x128) zz, View.ld_unit_zero (S := S128x2) zz, View.ld_unit_zero (S := S1x2) zz]
  funext j
  obtain ⟨p, q, rfl⟩ : ∃ (p : Fin 5000) (q : Fin 2), j = ix2 p q := ⟨j 0, j 1, eq_ix2 j⟩
  show k2_pay1 (F := Ideal) (iblk2 V c 0 t) (iblk2 V c 1 t) (iblk2 V c 2 t) (ix2 p q)
    = proj (V c main_v41) (V c main_arg9) (V c main_v42) (((cfg2.win 3).blk t).view.emb (ix2 p q))
  rw [emb2_3, proj_ix2, pay2_apply]
  exact projAt_of_rows (iblk2 V c 0 t) (iblk2 V c 1 t) (iblk2 V c 2 t)
    (V c main_v41) (V c main_arg9) (V c main_v42) p (row2 t p) q
    (fun k => by show V c main_v41 (((cfg2.win 0).blk t).view.emb (ix2 p k)) = _; rw [emb2_0])
    (fun k => by show V c main_arg9 (((cfg2.win 1).blk t).view.emb (ix2 k q)) = _; rw [emb2_1])
    (by show V c main_v42 (((cfg2.win 2).blk t).view.emb (ix2 (0 : Fin 1) q)) = _; rw [emb2_2])

/-- An index of the result array is in point `t`'s block iff each coordinate is in the block's range. -/
theorem mem_blk2 (t : Fin cfg2.N) (i : S100000x2.Idx) :
    i ∈ ((cfg2.win 3).blk t).view.set ↔ ∀ a : Fin 2, win2_3.index t a * S5000x2.size a ≤ (i a).val ∧ (i a).val < win2_3.index t a * S5000x2.size a + S5000x2.size a := by
  show i ∈ ((View.whole main_v43).slice (win2_3.rect t)).set ↔ _
  rw [View.set_slice_whole, Rect.mem_set_unit]
  exact Iff.rfl

/-- The twenty row blocks cover the array: row `r` lies in block `r / 5000`. -/
theorem cover2 (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  let t : Fin cfg2.N := ⟨(i 0).val / 5000, by rw [show cfg2.N = 20 from N_2]; omega⟩
  have ht : t.val = (i 0).val / 5000 := rfl
  obtain ⟨-, -, -, -, -, -, -, e0, e1⟩ := idx2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 2 ≤ (i 1).val ∧ (i 1).val < win2_3.index t (1 : Fin 2) * 2 + 2; omega

/-- THE RESULT ARRAY of the last launch: the projection of the arrays it was entered with. -/
theorem final2 (c : Dev nD) : (dat2 (F := Ideal) V c).arrAt 3 cfg2.N = proj2 V c :=
  (dat2 (F := Ideal) V c).arrAt_eq_of_cover 3 (proj2 V c) (fun t _ => flushed2 V c t) cover2

end Cert.KernelIdeal.Blocks

end
-- ==== Proof.BiasRow.lean ====
/-
  A bias vector as the one-row array the layers add.

  Both programs turn the length-`D` bias into a `1 × D` array before repeating it down the rows, one by a reshape
  and one by a broadcast along a new leading axis; either way entry `(0, q)` of the row is entry `q` of the vector.
-/
import Idealize.ShloMosaic.Lib.ValueIdx

noncomputable section

namespace Cert.GNN

open Idealize.ShloMosaic Idealize.ShloMosaic.ValueIdx

variable {D : ℕ}

/-- The `1 × D` row holding a length-`D` vector. -/
def asRow (v : FVec Ideal ⟨1, ![D]⟩ .f32) : FVec Ideal ⟨2, ![1, D]⟩ .f32 :=
  fun i => v (ix1 ⟨(i 1).val, idx2_lt1 i⟩)

theorem asRow_ix2 (v : FVec Ideal ⟨1, ![D]⟩ .f32) (u : Fin 1) (q : Fin D) : asRow v (ix2 u q) = v (ix1 q) := rfl

end Cert.GNN

end
-- ==== Proof.RefLayers.lean ====
/-
  The reference, layer by layer.

  Read one operation at a time at an entry `(p, q)`, the reference's first hidden array is the layer of the node
  features and their neighbourhood means, its second hidden array the layer of the first and ITS neighbourhood
  means, and its result the projection of the second: the host's products are the plain sums over the contracted index,
  the bias is repeated down the rows, and the rectifier is the maximum against the zero word. The neighbourhood means
  themselves (a gather, two scatter-additions and a division) are never opened: they enter as arrays.
-/
import proofs.«139321_j11905649344801_1_alg».proof.Proof.Layer
import proofs.«139321_j11905649344801_1_alg».proof.Proof.BiasRow
import proofs.«139321_j11905649344801_1_alg».proof.Proof.Gen.ReferenceIdeal.Read

noncomputable section

namespace Cert.ReferenceIdeal.Layers

open Idealize.ShloMosaic Idealize.ShloMosaic.ValueIdx Cert.ReferenceIdeal Cert.ReferenceIdeal.Gen Cert.ReferenceIdeal.Read Cert.GNN

variable (x0 : (⟨S100000x4, .f32⟩ : BufTy).Contents (Elt Ideal)) (x1 x2 : (⟨S1600000, .i32⟩ : BufTy).Contents (Elt Ideal))
  (x3 x4 : (⟨S4x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal))
  (x9 : (⟨S128x2, .f32⟩ : BufTy).Contents (Elt Ideal)) (x10 : (⟨S2, .f32⟩ : BufTy).Contents (Elt Ideal))

/-- The first hidden array is the layer of the features and their neighbourhood means. -/
theorem first_layer :
    val_main_v25 (F := Ideal) x0 x1 x2 x3 x4 x5 = layer x0 (val_main_v18 (F := Ideal) x0 x1 x2) x3 x4 (asRow x5) := by
  funext i
  obtain ⟨p, q, rfl⟩ : ∃ (p : Fin 100000) (q : Fin 128), i = ix2 p q := ⟨i 0, i 1, eq_ix2 i⟩
  rw [layer_ix2, val_main_v25_apply, val_main_v24_apply, val_main_v21_apply, val_main_v19_apply, val_main_v20_apply,
    val_main_v23_apply, val_main_v22_apply, val_main_call0_v0_apply, val_main_call0_cst_apply]
  have e1 : ∀ k : Fin 4, lidx_main_v19 (ix2 p q) k = ix2 p k := fun k => funext fun a => Fin.ext (by
    match a with | ⟨0, _⟩ => rfl | ⟨1, _⟩ => rfl)
  have e2 : ∀ k : Fin 4, ridx_main_v19 (ix2 p q) k = ix2 k q := fun k => funext fun a => Fin.ext (by
    match a with | ⟨0, _⟩ => rfl | ⟨1, _⟩ => rfl)
  have e3 : ∀ k : Fin 4, lidx_main_v20 (ix2 p q) k = ix2 p k := fun k => funext fun a => Fin.ext (by
    match a with | ⟨0, _⟩ => rfl | ⟨1, _⟩ => rfl)
  have e4 : ∀ k : Fin 4, ridx_main_v20 (ix2 p q) k = ix2 k q := fun k => funext fun a => Fin.ext (by
    match a with | ⟨0, _⟩ => rfl | ⟨1, _⟩ => rfl)
  have e5 : idx_main_v22 (idx_main_v23 (ix2 p q)) = ix1 q := funext fun a => Fin.ext (by
    match a with | ⟨0, _⟩ => rfl)
  simp only [e1, e2, e3, e4, e5]
  rfl

/-- The second hidden array is the layer of the first and its neighbourhood means. -/
theorem second_layer :
    val_main_v51 (F := Ideal) x0 x1 x2 x3 x4 x5 x6 x7 x8
      = layer (val_main_v25 (F := Ideal) x0 x1 x2 x3 x4 x5) (val_main_v44 (F := Ideal) x0 x1 x2 x3 x4 x5) x6 x7 (asRow x8) := by
  funext i
  obtain ⟨p, q, rfl⟩ : ∃ (p : Fin 100000) (q : Fin 128), i = ix2 p q := ⟨i 0, i 1, eq_ix2 i⟩
  rw [layer_ix2, val_main_v51_apply, val_main_v50_apply, val_main_v47_apply, val_main_v45_apply, val_main_v46_apply,
    val_main_v49_apply, val_main_v48_apply, val_main_call1_v0_apply, val_main_call1_cst_apply]
  have e1 : ∀ k : Fin 128, lidx_main_v45 (ix2 p q) k = ix2 p k := fun k => funext fun a => Fin.ext (by
    match a with | ⟨0, _⟩ => rfl | ⟨1, _⟩ => rfl)
  have e2 : ∀ k : Fin 128, ridx_main_v45 (ix2 p q) k = ix2 k q := fun k => funext fun a => Fin.ext (by
    match a with | ⟨0, _⟩ => rfl | ⟨1, _⟩ => rfl)
  have e3 : ∀ k : Fin 128, lidx_main_v46 (ix2 p q) k = ix2 p k := fun k => funext fun a => Fin.ext (by
    match a with | ⟨0, _⟩ => rfl | ⟨1, _⟩ => rfl)
  have e4 : ∀ k : Fin 128, ridx_main_v46 (ix2 p q) k = ix2 k q := fun k => funext fun a => Fin.ext (by
    match a with | ⟨0, _⟩ => rfl | ⟨1, _⟩ => rfl)
  have e5 : idx_main_v48 (idx_main_v49 (ix2 p q)) = ix1 q := funext fun a => Fin.ext (by
    match a with | ⟨0, _⟩ => rfl)
  simp only [e1, e2, e3, e4, e5]
  rfl

/-- The result is the projection of the second hidden array. -/
theorem projection :
    val_main_v55 (F := Ideal) x0 x1 x2 x3 x4 x5 x6 x7 x8 x9 x10
      = proj (val_main_v51 (F := Ideal) x0 x1 x2 x3 x4 x5 x6 x7 x8) x9 (asRow x10) := by
  funext i
  obtain ⟨p, q, rfl⟩ : ∃ (p : Fin 100000) (q : Fin 2), i = ix2 p q := ⟨i 0, i 1, eq_ix2 i⟩
  rw [proj_ix2, val_main_v55_apply, val_main_v52_apply, val_main_v54_apply, val_main_v53_apply]
  have e1 : ∀ k : Fin 128, lidx_main_v52 (ix2 p q) k = ix2 p k := fun k => funext fun a => Fin.ext (by
    match a with | ⟨0, _⟩ => rfl | ⟨1, _⟩ => rfl)
  have e2 : ∀ k : Fin 128, ridx_main_v52 (ix2 p q) k = ix2 k q := fun k => funext fun a => Fin.ext (by
    match a with | ⟨0, _⟩ => rfl | ⟨1, _⟩ => rfl)
  have e5 : idx_main_v53 (idx_main_v54 (ix2 p q)) = ix1 q := funext fun a => Fin.ext (by
    match a with | ⟨0, _⟩ => rfl)
  simp only [e1, e2, e5]
  rfl

end Cert.ReferenceIdeal.Layers

end
-- ==== Proof.Fold.lean ====
/-
  The kernel program's result, read back through its launches and host stretches.

  Between the launch of @main and its return the buffers pass six boundaries: a stretch of host operations, the first
  kernel launch, a second stretch, the second launch, a one-operation stretch, the last launch. An argument is never
  written, so it holds its launch contents at every boundary. The first stretch leaves the neighbourhood means of the
  features and the first bias as a row; the first launch leaves the layer of those, which is the reference's first
  hidden array. The second stretch applies the SAME operations to that array, so it leaves what the reference's own
  chain leaves; the second launch then leaves the reference's second hidden array, and the last launch its result.
  The gather, the scatter-additions and the division are carried as they are printed and never opened.
-/
import proofs.«139321_j11905649344801_1_alg».proof.Proof.Blocks1
import proofs.«139321_j11905649344801_1_alg».proof.Proof.Blocks2
import proofs.«139321_j11905649344801_1_alg».proof.Proof.RefLayers
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.KernelIdeal.Blocks Cert.GNN

variable (m : (ℓ : Loc nD τ sig) → Buf (Elt Ideal) ℓ) (ρ : Dev nD → PrngReg)

/-- A buffer no operation of a stretch writes holds after the stretch what it held before. -/
local macro "unwritten " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments at every boundary -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  unwritten hostOps0
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W3_arg0 (c : Dev nD) : W3 m ρ c (Proc.devRef .tc main_arg0) = m ((c : Thread nD τ).loc main_arg0) := by
  refine Eq.trans ?_ (W2_arg0 m ρ c)
  show StableHlo.after hostOps1 (W2 m ρ c) (Proc.devRef .tc main_arg0) = W2 m ρ c (Proc.devRef .tc main_arg0)
  unwritten hostOps1
theorem W4_arg0 (c : Dev nD) : W4 m ρ c (Proc.devRef .tc main_arg0) = m ((c : Thread nD τ).loc main_arg0) :=
  (W4_of_ne m ρ c main_arg0 (by decide)).trans (W3_arg0 m ρ c)
theorem W5_arg0 (c : Dev nD) : W5 m ρ c (Proc.devRef .tc main_arg0) = m ((c : Thread nD τ).loc main_arg0) := by
  refine Eq.trans ?_ (W4_arg0 m ρ c)
  show StableHlo.after hostOps2 (W4 m ρ c) (Proc.devRef .tc main_arg0) = W4 m ρ c (Proc.devRef .tc main_arg0)
  unwritten hostOps2
theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  unwritten hostOps0
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) := by
  refine Eq.trans ?_ (W2_arg1 m ρ c)
  show StableHlo.after hostOps1 (W2 m ρ c) (Proc.devRef .tc main_arg1) = W2 m ρ c (Proc.devRef .tc main_arg1)
  unwritten hostOps1
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) := by
  refine Eq.trans ?_ (W4_arg1 m ρ c)
  show StableHlo.after hostOps2 (W4 m ρ c) (Proc.devRef .tc main_arg1) = W4 m ρ c (Proc.devRef .tc main_arg1)
  unwritten hostOps2
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  unwritten hostOps0
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) := by
  refine Eq.trans ?_ (W2_arg2 m ρ c)
  show StableHlo.after hostOps1 (W2 m ρ c) (Proc.devRef .tc main_arg2) = W2 m ρ c (Proc.devRef .tc main_arg2)
  unwritten hostOps1
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) := by
  refine Eq.trans ?_ (W4_arg2 m ρ c)
  show StableHlo.after hostOps2 (W4 m ρ c) (Proc.devRef .tc main_arg2) = W4 m ρ c (Proc.devRef .tc main_arg2)
  unwritten hostOps2
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  unwritten hostOps0
theorem W2_arg3 (c : Dev nD) : W2 m ρ c (Proc.devRef .tc main_arg3) = m ((c : Thread nD τ).loc main_arg3) :=
  ((W2_arr m ρ c 2).trans (((dat0 (V1 m ρ) c).arrAt_in 2 rfl _).trans (A_eq0 (V1 m ρ) c 2))).trans (W1_arg3 m ρ c)
theorem W3_arg3 (c : Dev nD) : W3 m ρ c (Proc.devRef .tc main_arg3) = m ((c : Thread nD τ).loc main_arg3) := by
  refine Eq.trans ?_ (W2_arg3 m ρ c)
  show StableHlo.after hostOps1 (W2 m ρ c) (Proc.devRef .tc main_arg3) = W2 m ρ c (Proc.devRef .tc main_arg3)
  unwritten hostOps1
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) := by
  refine Eq.trans ?_ (W4_arg3 m ρ c)
  show StableHlo.after hostOps2 (W4 m ρ c) (Proc.devRef .tc main_arg3) = W4 m ρ c (Proc.devRef .tc main_arg3)
  unwritten hostOps2
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  unwritten hostOps0
theorem W2_arg4 (c : Dev nD) : W2 m ρ c (Proc.devRef .tc main_arg4) = m ((c : Thread nD τ).loc main_arg4) :=
  ((W2_arr m ρ c 3).trans (((dat0 (V1 m ρ) c).arrAt_in 3 rfl _).trans (A_eq0 (V1 m ρ) c 3))).trans (W1_arg4 m ρ c)
theorem W3_arg4 (c : Dev nD) : W3 m ρ c (Proc.devRef .tc main_arg4) = m ((c : Thread nD τ).loc main_arg4) := by
  refine Eq.trans ?_ (W2_arg4 m ρ c)
  show StableHlo.after hostOps1 (W2 m ρ c) (Proc.devRef .tc main_arg4) = W2 m ρ c (Proc.devRef .tc main_arg4)
  unwritten hostOps1
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) := by
  refine Eq.trans ?_ (W4_arg4 m ρ c)
  show StableHlo.after hostOps2 (W4 m ρ c) (Proc.devRef .tc main_arg4) = W4 m ρ c (Proc.devRef .tc main_arg4)
  unwritten hostOps2
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  unwritten hostOps0
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = W2 m ρ c (Proc.devRef .tc main_arg5)
  unwritten hostOps1
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) := by
  refine Eq.trans ?_ (W4_arg5 m ρ c)
  show StableHlo.after hostOps2 (W4 m ρ c) (Proc.devRef .tc main_arg5) = W4 m ρ c (Proc.devRef .tc main_arg5)
  unwritten hostOps2
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  unwritten hostOps0
theorem W2_arg6 (c : Dev nD) : W2 m ρ c (Proc.devRef .tc main_arg6) = m ((c : Thread nD τ).loc main_arg6) :=
  (W2_of_ne m ρ c main_arg6 (by decide)).trans (W1_arg6 m ρ c)
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = W2 m ρ c (Proc.devRef .tc main_arg6)
  unwritten hostOps1
theorem W4_arg6 (c : Dev nD) : W4 m ρ c (Proc.devRef .tc main_arg6) = m ((c : Thread nD τ).loc main_arg6) :=
  ((W4_arr m ρ c 2).trans (((dat1 (V3 m ρ) c).arrAt_in 2 rfl _).trans (A_eq1 (V3 m ρ) c 2))).trans (W3_arg6 m ρ c)
theorem W5_arg6 (c : Dev nD) : W5 m ρ c (Proc.devRef .tc main_arg6) = m ((c : Thread nD τ).loc main_arg6) := by
  refine Eq.trans ?_ (W4_arg6 m ρ c)
  show StableHlo.after hostOps2 (W4 m ρ c) (Proc.devRef .tc main_arg6) = W4 m ρ c (Proc.devRef .tc main_arg6)
  unwritten hostOps2
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  unwritten hostOps0
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) := by
  refine Eq.trans ?_ (W2_arg7 m ρ c)
  show StableHlo.after hostOps1 (W2 m ρ c) (Proc.devRef .tc main_arg7) = W2 m ρ c (Proc.devRef .tc main_arg7)
  unwritten hostOps1
theorem W4_arg7 (c : Dev nD) : W4 m ρ c (Proc.devRef .tc main_arg7) = m ((c : Thread nD τ).loc main_arg7) :=
  ((W4_arr m ρ c 3).trans (((dat1 (V3 m ρ) c).arrAt_in 3 rfl _).trans (A_eq1 (V3 m ρ) c 3))).trans (W3_arg7 m ρ c)
theorem W5_arg7 (c : Dev nD) : W5 m ρ c (Proc.devRef .tc main_arg7) = m ((c : Thread nD τ).loc main_arg7) := by
  refine Eq.trans ?_ (W4_arg7 m ρ c)
  show StableHlo.after hostOps2 (W4 m ρ c) (Proc.devRef .tc main_arg7) = W4 m ρ c (Proc.devRef .tc main_arg7)
  unwritten hostOps2
theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  unwritten hostOps0
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) := by
  refine Eq.trans ?_ (W2_arg8 m ρ c)
  show StableHlo.after hostOps1 (W2 m ρ c) (Proc.devRef .tc main_arg8) = W2 m ρ c (Proc.devRef .tc main_arg8)
  unwritten hostOps1
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) := by
  refine Eq.trans ?_ (W4_arg8 m ρ c)
  show StableHlo.after hostOps2 (W4 m ρ c) (Proc.devRef .tc main_arg8) = W4 m ρ c (Proc.devRef .tc main_arg8)
  unwritten hostOps2
theorem W1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9)
  unwritten hostOps0
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) := by
  refine Eq.trans ?_ (W2_arg9 m ρ c)
  show StableHlo.after hostOps1 (W2 m ρ c) (Proc.devRef .tc main_arg9) = W2 m ρ c (Proc.devRef .tc main_arg9)
  unwritten hostOps1
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) := by
  refine Eq.trans ?_ (W4_arg9 m ρ c)
  show StableHlo.after hostOps2 (W4 m ρ c) (Proc.devRef .tc main_arg9) = W4 m ρ c (Proc.devRef .tc main_arg9)
  unwritten hostOps2
theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  unwritten hostOps0
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) := by
  refine Eq.trans ?_ (W2_arg10 m ρ c)
  show StableHlo.after hostOps1 (W2 m ρ c) (Proc.devRef .tc main_arg10) = W2 m ρ c (Proc.devRef .tc main_arg10)
  unwritten hostOps1
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) := by
  refine Eq.trans ?_ (W4_arg10 m ρ c)
  show StableHlo.after hostOps2 (W4 m ρ c) (Proc.devRef .tc main_arg10) = W4 m ρ c (Proc.devRef .tc main_arg10)
  unwritten hostOps2

/-! ## The first stretch and the first launch -/

set_option maxHeartbeats 4000000 in
/-- The first stretch leaves the neighbourhood means of the features: the reference's own chain of operations. -/
theorem W1_v18 (c : Dev nD) : W1 m ρ c (Proc.devRef .tc main_v18) = Cert.ReferenceIdeal.Read.val_main_v18 (F := Ideal) (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

/-- … and the first bias as a row. -/
theorem W1_v19 (c : Dev nD) : W1 m ρ c (Proc.devRef .tc main_v19) = asRow (m ((c : Thread nD τ).loc main_arg5)) := by
  show StableHlo.after hostOps0 (W0 m ρ c) (Proc.devRef .tc main_v19) = _
  after_results
  funext i
  obtain ⟨u, q, rfl⟩ : ∃ (u : Fin 1) (q : Fin 128), i = ix2 u q := ⟨i 0, i 1, eq_ix2 i⟩
  show shapeCast S1x128 (m ((c : Thread nD τ).loc main_arg5)) shapeCasts_S128_S1x128 (ix2 u q) = _
  rw [shapeCast_a_1a_apply, asRow_ix2]

/-- The first launch leaves the reference's first hidden array. -/
theorem W2_v20 (c : Dev nD) : W2 m ρ c (Proc.devRef .tc main_v20) = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((final0 (V1 m ρ) c).trans ?_)
  show layer (W1 m ρ c (Proc.devRef .tc main_arg0)) (W1 m ρ c (Proc.devRef .tc main_v18)) (W1 m ρ c (Proc.devRef .tc main_arg3))
    (W1 m ρ c (Proc.devRef .tc main_arg4)) (W1 m ρ c (Proc.devRef .tc main_v19)) = _
  rw [W1_arg0, W1_v18, W1_arg3, W1_arg4, W1_v19]
  exact (Cert.ReferenceIdeal.Layers.first_layer _ _ _ _ _ _).symm

/-! ## The second stretch and the second launch -/

theorem W3_v20 (c : Dev nD) : W3 m ρ c (Proc.devRef .tc main_v20) = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Eq.trans ?_ (W2_v20 m ρ c)
  show StableHlo.after hostOps1 (W2 m ρ c) (Proc.devRef .tc main_v20) = W2 m ρ c (Proc.devRef .tc main_v20)
  unwritten hostOps1

set_option maxHeartbeats 4000000 in
/-- The second stretch leaves the neighbourhood means of the first hidden array: the reference's own chain again. -/
theorem W3_v39 (c : Dev nD) : W3 m ρ c (Proc.devRef .tc main_v39) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v39) = _
  after_results_simp
  rw [W2_v20, W2_arg1, W2_arg2]
  rfl

theorem W3_v40 (c : Dev nD) : W3 m ρ c (Proc.devRef .tc main_v40) = asRow (m ((c : Thread nD τ).loc main_arg8)) := by
  show StableHlo.after hostOps1 (W2 m ρ c) (Proc.devRef .tc main_v40) = _
  after_results
  funext i
  obtain ⟨u, q, rfl⟩ : ∃ (u : Fin 1) (q : Fin 128), i = ix2 u q := ⟨i 0, i 1, eq_ix2 i⟩
  show shapeCast S1x128 (W2 m ρ c (Proc.devRef .tc main_arg8)) shapeCasts_S128_S1x128 (ix2 u q) = _
  rw [shapeCast_a_1a_apply, W2_arg8, asRow_ix2]

/-- The second launch leaves the reference's second hidden array. -/
theorem W4_v41 (c : Dev nD) : W4 m ρ c (Proc.devRef .tc main_v41) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((final1 (V3 m ρ) c).trans ?_)
  show layer (W3 m ρ c (Proc.devRef .tc main_v20)) (W3 m ρ c (Proc.devRef .tc main_v39)) (W3 m ρ c (Proc.devRef .tc main_arg6))
    (W3 m ρ c (Proc.devRef .tc main_arg7)) (W3 m ρ c (Proc.devRef .tc main_v40)) = _
  rw [W3_v20, W3_v39, W3_arg6, W3_arg7, W3_v40]
  exact (Cert.ReferenceIdeal.Layers.second_layer _ _ _ _ _ _ _ _ _).symm

/-! ## The last stretch and the last launch -/

theorem W5_v41 (c : Dev nD) : W5 m ρ c (Proc.devRef .tc main_v41) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine Eq.trans ?_ (W4_v41 m ρ c)
  show StableHlo.after hostOps2 (W4 m ρ c) (Proc.devRef .tc main_v41) = W4 m ρ c (Proc.devRef .tc main_v41)
  unwritten hostOps2

theorem W5_v42 (c : Dev nD) : W5 m ρ c (Proc.devRef .tc main_v42) = asRow (m ((c : Thread nD τ).loc main_arg10)) := by
  show StableHlo.after hostOps2 (W4 m ρ c) (Proc.devRef .tc main_v42) = _
  after_results
  funext i
  obtain ⟨u, q, rfl⟩ : ∃ (u : Fin 1) (q : Fin 2), i = ix2 u q := ⟨i 0, i 1, eq_ix2 i⟩
  show shapeCast S1x2 (W4 m ρ c (Proc.devRef .tc main_arg10)) shapeCasts_S2_S1x2 (ix2 u q) = _
  rw [shapeCast_a_1a_apply, W4_arg10, asRow_ix2]

/-- THE RESULT: at the last boundary the result array holds the reference's result term of the arguments. -/
theorem result (c : Dev nD) : W6 m ρ c (Proc.devRef .tc main_v43)
    = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 3).trans ((final2 (V5 m ρ) c).trans ?_)
  show proj (W5 m ρ c (Proc.devRef .tc main_v41)) (W5 m ρ c (Proc.devRef .tc main_arg9)) (W5 m ρ c (Proc.devRef .tc main_v42)) = _
  rw [W5_v41, W5_arg9, W5_v42]
  exact (Cert.ReferenceIdeal.Layers.projection _ _ _ _ _ _ _ _ _ _ _).symm

end Cert.KernelIdeal.Fold

end
-- ==== Proof.lean ====
/-
  A two-layer graph network with mean aggregation, row-tiled on the device, against its plain array form.

  Both programs compute, for node features `x`, edge lists `src`, `dst` and weights,

      h₁ = max( (x·Ws₁ + mean(x)·Wn₁) + b₁ , 0 ),   h₂ = max( (h₁·Ws₂ + mean(h₁)·Wn₂) + b₂ , 0 ),   out = h₂·Wo + bo,

  where `mean(h)` gathers the rows of `h` at `src`, adds them up by `dst` and divides by the larger of the in-degree and
  one. The neighbourhood means are the same host operations in both programs and are carried unopened. The device
  program evaluates each layer in twenty blocks of 5000 rows; an entry of a layer reads one row of its row arrays, so
  each block is the layer's restriction and the twenty blocks tile the array (Blocks0, Blocks1, Blocks2). At the ideal
  values the products on both sides are the plain sums over the contracted index and the changes of float format are
  the identity, so no law of the extended reals beyond reading both sides entry by entry is used, and the
  precondition is never opened.

  The three frames: the device programs' are the generated frame certificates; the reference's is its generated run
  with the result dropped. The idealization rewrote no operation, so `preserves` is trivial. For `algebraic` the device
  program is run once more with the result array read at the last boundary (KernelRun), that array is the reference's
  result term of the arguments (Fold), and the reference's run ends at the same term of arguments that agree.
-/
import proofs.«139321_j11905649344801_1_alg».proof.Defs
import proofs.«139321_j11905649344801_1_alg».proof.Proof.Gen.Kernel
import proofs.«139321_j11905649344801_1_alg».proof.Proof.Gen.Kernel.Skeleton
import proofs.«139321_j11905649344801_1_alg».proof.Proof.Gen.Kernel.Launch
import proofs.«139321_j11905649344801_1_alg».proof.Proof.Gen.Kernel.Points
import proofs.«139321_j11905649344801_1_alg».proof.Proof.Gen.Kernel.Frame
import proofs.«139321_j11905649344801_1_alg».proof.Proof.Gen.KernelIdeal
import proofs.«139321_j11905649344801_1_alg».proof.Proof.Gen.KernelIdeal.Skeleton
import proofs.«139321_j11905649344801_1_alg».proof.Proof.Gen.KernelIdeal.Launch
import proofs.«139321_j11905649344801_1_alg».proof.Proof.Gen.KernelIdeal.Points
import proofs.«139321_j11905649344801_1_alg».proof.Proof.Gen.KernelIdeal.Frame
import proofs.«139321_j11905649344801_1_alg».proof.Proof.Gen.ReferenceIdeal
import proofs.«139321_j11905649344801_1_alg».proof.Proof.Gen.Pre_finite_inputs
import proofs.«139321_j11905649344801_1_alg».proof.Proof.Gen.ReferenceIdeal.Run
import proofs.«139321_j11905649344801_1_alg».proof.Proof.Gen.ReferenceIdeal.Read
import proofs.«139321_j11905649344801_1_alg».proof.Proof.KernelRun
import proofs.«139321_j11905649344801_1_alg».proof.Proof.Fold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's result term of the launch contents of the arguments,
    and the arguments agree. -/
theorem algebraic : Cert.algebraic_KernelIdeal_ReferenceIdeal := by
  intro m ρ m' ρ' _ hagree
  refine ⟨fun c => Cert.ReferenceIdeal.Read.val_main_v55 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.result m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v55_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
